-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1536 : Shape := ⟨3, ![4, 2048, 1536]⟩
abbrev S_ : Shape := ⟨0, ![]⟩

class Facts : Prop where
  bcast_S_S4x2048x1536 : S_.BroadcastsInDim S4x2048x1536 (![] : Fin 0 → Fin S4x2048x1536.rank)
  reducesTo_S4x2048x1536_S_d0_1_2 : S4x2048x1536.ReducesTo [0, 1, 2] S_
  h_S_ : 0 < S_.numel

variable [Facts]

def fn {F : FTy → Type} [FloatOps F] (main_arg0 : FVec F S4x2048x1536 .f32) : IVec S_ 1 :=
  let main_v0 : FVec F S4x2048x1536 .f32 := Host.absf main_arg0
  let main_cst : FVec F S_ .f32 := constant S_ .f32 0x7F800000#32
  let main_v1 : FVec F S4x2048x1536 .f32 := broadcastInDim S4x2048x1536 ![] bcast_S_S4x2048x1536 main_cst
  let main_v2 : IVec S4x2048x1536 1 := cmpf .olt main_v0 main_v1
  let main_c : IVec S_ 1 := constantI S_ 1 1#1
  let main_v3 : IVec S_ 1 := (fun x v => Host.reduce IntOp.andi x v reducesTo_S4x2048x1536_S_d0_1_2 h_S_) main_v2 main_c
  main_v3
-- ==== Kernel.lean ====
abbrev S4x2048x1536 : Shape := ⟨3, ![4, 2048, 1536]⟩
abbrev S4x2048x512 : Shape := ⟨3, ![4, 2048, 512]⟩
abbrev S1x512x512 : Shape := ⟨3, ![1, 512, 512]⟩
abbrev S1x2048x512 : Shape := ⟨3, ![1, 2048, 512]⟩
abbrev S512x512 : Shape := ⟨2, ![512, 512]⟩
abbrev S2048x512 : Shape := ⟨2, ![2048, 512]⟩
abbrev S512x32 : Shape := ⟨2, ![512, 32]⟩
abbrev S2048x32 : Shape := ⟨2, ![2048, 32]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x2048x1536, .f32⟩
  | .hbm, ⟨1, _⟩ => ⟨S4x2048x512, .f32⟩
  | .hbm, ⟨2, _⟩ => ⟨S4x2048x512, .bf16⟩
  | .hbm, ⟨3, _⟩ => ⟨S4x2048x512, .f32⟩
  | .hbm, ⟨4, _⟩ => ⟨S4x2048x512, .bf16⟩
  | .hbm, ⟨5, _⟩ => ⟨S4x2048x512, .f32⟩
  | .hbm, ⟨6, _⟩ => ⟨S4x2048x512, .bf16⟩
  | .hbm, ⟨7, _⟩ => ⟨S4x2048x512, .f32⟩
  | .local _ .vmem, ⟨0, _⟩ => ⟨S1x512x512, .bf16⟩
  | .local _ .vmem, ⟨1, _⟩ => ⟨S1x512x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x512, .f32⟩
  | .local _ .vmem, ⟨7, _⟩ => ⟨S1x512x512, .f32⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S4x2048x1536_S4x2048x512_0_0_0 : S4x2048x1536.Slices ![0, 0, 0] S4x2048x512
  bitsLt_bf16_f32 : FTy.bits .bf16 < FTy.bits .f32
  slices_S4x2048x1536_S4x2048x512_0_0_512 : S4x2048x1536.Slices ![0, 0, 512] S4x2048x512
  slices_S4x2048x1536_S4x2048x512_0_0_1024 : S4x2048x1536.Slices ![0, 0, 1024] S4x2048x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  slices_S512x512_o0_0_S512x32 : S512x512.Slices ![0, 0] S512x32
  slices_S2048x512_o0_0_S2048x32 : S2048x512.Slices ![0, 0] S2048x32
  reduces_S512x2048_S512 : S512x2048.Reduces [1] S512
  shapeCasts_S512_S512x1 : S512.ShapeCasts S512x1
  broadcasts_S512x1_S512x2048 : S512x1.Broadcasts S512x2048
  broadcasts_S512x1_S512x32 : S512x1.Broadcasts S512x32
  slices_S512x512_o0_32_S512x32 : S512x512.Slices ![0, 32] S512x32
  slices_S2048x512_o0_32_S2048x32 : S2048x512.Slices ![0, 32] S2048x32
  slices_S512x512_o0_64_S512x32 : S512x512.Slices ![0, 64] S512x32
  slices_S2048x512_o0_64_S2048x32 : S2048x512.Slices ![0, 64] S2048x32
  slices_S512x512_o0_96_S512x32 : S512x512.Slices ![0, 96] S512x32
  slices_S2048x512_o0_96_S2048x32 : S2048x512.Slices ![0, 96] S2048x32
  slices_S512x512_o0_128_S512x32 : S512x512.Slices ![0, 128] S512x32
  slices_S2048x512_o0_128_S2048x32 : S2048x512.Slices ![0, 128] S2048x32
  slices_S512x512_o0_160_S512x32 : S512x512.Slices ![0, 160] S512x32
  slices_S2048x512_o0_160_S2048x32 : S2048x512.Slices ![0, 160] S2048x32
  slices_S512x512_o0_192_S512x32 : S512x512.Slices ![0, 192] S512x32
  slices_S2048x512_o0_192_S2048x32 : S2048x512.Slices ![0, 192] S2048x32
  slices_S512x512_o0_224_S512x32 : S512x512.Slices ![0, 224] S512x32
  slices_S2048x512_o0_224_S2048x32 : S2048x512.Slices ![0, 224] S2048x32
  slices_S512x512_o0_256_S512x32 : S512x512.Slices ![0, 256] S512x32
  slices_S2048x512_o0_256_S2048x32 : S2048x512.Slices ![0, 256] S2048x32
  slices_S512x512_o0_288_S512x32 : S512x512.Slices ![0, 288] S512x32
  slices_S2048x512_o0_288_S2048x32 : S2048x512.Slices ![0, 288] S2048x32
  slices_S512x512_o0_320_S512x32 : S512x512.Slices ![0, 320] S512x32
  slices_S2048x512_o0_320_S2048x32 : S2048x512.Slices ![0, 320] S2048x32
  slices_S512x512_o0_352_S512x32 : S512x512.Slices ![0, 352] S512x32
  slices_S2048x512_o0_352_S2048x32 : S2048x512.Slices ![0, 352] S2048x32
  slices_S512x512_o0_384_S512x32 : S512x512.Slices ![0, 384] S512x32
  slices_S2048x512_o0_384_S2048x32 : S2048x512.Slices ![0, 384] S2048x32
  slices_S512x512_o0_416_S512x32 : S512x512.Slices ![0, 416] S512x32
  slices_S2048x512_o0_416_S2048x32 : S2048x512.Slices ![0, 416] S2048x32
  slices_S512x512_o0_448_S512x32 : S512x512.Slices ![0, 448] S512x32
  slices_S2048x512_o0_448_S2048x32 : S2048x512.Slices ![0, 448] S2048x32
  slices_S512x512_o0_480_S512x32 : S512x512.Slices ![0, 480] S512x32
  slices_S2048x512_o0_480_S2048x32 : S2048x512.Slices ![0, 480] S2048x32
  concatenates_S512x32_S512x32_S512x32_S512x32_S512x32_S512x32_S512x32_S512x32_S512x32_S512x32_S512x32_S512x32_S512x32_S512x32_S512x32_S512x32_S512x512_d1 : Shape.Concatenates [S512x32, S512x32, S512x32, S512x32, S512x32, S512x32, S512x32, S512x32, S512x32, S512x32, S512x32, S512x32, S512x32, S512x32, S512x32, S512x32] S512x512 1
  shapeCasts_S512x512_S1x512x512 : S512x512.ShapeCasts S1x512x512
  dot_S512x32_S2048x32_S512x2048_1_1_0_0_n_n_wf : DotDims.WF S512x32 S2048x32 S512x2048 [1] [1] [0] [0] [] []
  dot_S512x2048_S2048x32_S512x32_1_0_0_1_n_n_wf : DotDims.WF S512x2048 S2048x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S4x2048x512.size a
  hwx0_0 : ∀ i : grid0.Coords, EltTy.bits .bf16 = 32 ∨ (Rect.block (s := S4x2048x512) S1x512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S4x2048x512.size a
  hwx0_1 : ∀ i : grid0.Coords, EltTy.bits .bf16 = 32 ∨ (Rect.block (s := S4x2048x512) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S4x2048x512.size a
  hwx0_2 : ∀ i : grid0.Coords, EltTy.bits .bf16 = 32 ∨ (Rect.block (s := S4x2048x512) S1x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S4x2048x512.size a
  hwx0_3 : ∀ i : grid0.Coords, EltTy.bits .f32 = 32 ∨ (Rect.block (s := S4x2048x512) S1x512x512.size (cc0_transform_3 i) (hinb0_3 i)).WholeWords (EltTy.packing .f32)

variable [Facts₀]

def dot_S512x32_S2048x32_S512x2048_1_1_0_0_n_n : DotDims S512x32 S2048x32 S512x2048 where
  lhsContracting := [1]
  rhsContracting := [1]
  lhsNonContracting := [0]
  rhsNonContracting := [0]
  lhsBatch := []
  rhsBatch := []
  wf := dot_S512x32_S2048x32_S512x2048_1_1_0_0_n_n_wf
def dot_S512x2048_S2048x32_S512x32_1_0_0_1_n_n : DotDims S512x2048 S2048x32 S512x32 where
  lhsContracting := [1]
  rhsContracting := [0]
  lhsNonContracting := [0]
  rhsNonContracting := [1]
  lhsBatch := []
  rhsBatch := []
  wf := dot_S512x2048_S2048x32_S512x32_1_0_0_1_n_n_wf

abbrev win0_0 : Pipeline.Window sig grid0 :=
  Pipeline.Window.ofSpec (Memref.whole main_v1) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x1536 : Shape := ⟨3, ![4, 2048, 1536]⟩
abbrev S4x2048x3x16x32 : Shape := ⟨5, ![4, 2048, 3, 16, 32]⟩
abbrev S3x4x16x2048x32 : Shape := ⟨5, ![3, 4, 16, 2048, 32]⟩
abbrev S1x4x16x2048x32 : Shape := ⟨5, ![1, 4, 16, 2048, 32]⟩
abbrev S4x16x2048x32 : Shape := ⟨4, ![4, 16, 2048, 32]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x32 : Shape := ⟨4, ![4, 2048, 16, 32]⟩
abbrev S4x2048x512 : Shape := ⟨3, ![4, 2048, 512]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x1536, .f32⟩
  | .hbm, ⟨1, _⟩ => ⟨S4x2048x3x16x32, .f32⟩
  | .hbm, ⟨2, _⟩ => ⟨S3x4x16x2048x32, .f32⟩
  | .hbm, ⟨3, _⟩ => ⟨S1x4x16x2048x32, .f32⟩
  | .hbm, ⟨4, _⟩ => ⟨S4x16x2048x32, .f32⟩
  | .hbm, ⟨5, _⟩ => ⟨S1x4x16x2048x32, .f32⟩
  | .hbm, ⟨6, _⟩ => ⟨S4x16x2048x32, .f32⟩
  | .hbm, ⟨7, _⟩ => ⟨S1x4x16x2048x32, .f32⟩
  | .hbm, ⟨8, _⟩ => ⟨S4x16x2048x32, .f32⟩
  | .hbm, ⟨9, _⟩ => ⟨S4x16x2048x2048, .f32⟩
  | .hbm, ⟨10, _⟩ => ⟨S_, .f32⟩
  | .hbm, ⟨11, _⟩ => ⟨S4x16x2048x2048, .f32⟩
  | .hbm, ⟨12, _⟩ => ⟨S4x16x2048x2048, .f32⟩
  | .hbm, ⟨13, _⟩ => ⟨S_, .f32⟩
  | .hbm, ⟨14, _⟩ => ⟨S4x16x2048, .f32⟩
  | .hbm, ⟨15, _⟩ => ⟨S_, .f32⟩
  | .hbm, ⟨16, _⟩ => ⟨S4x16x2048, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x2048, .f32⟩
  | .hbm, ⟨22, _⟩ => ⟨S_, .f32⟩
  | .hbm, ⟨23, _⟩ => ⟨S4x16x2048, .f32⟩
  | .hbm, ⟨24, _⟩ => ⟨S4x16x2048x1, .f32⟩
  | .hbm, ⟨25, _⟩ => ⟨S4x16x2048x2048, .f32⟩
  | .hbm, ⟨26, _⟩ => ⟨S4x16x2048x2048, .f32⟩
  | .hbm, ⟨27, _⟩ => ⟨S4x16x2048x32, .f32⟩
  | .hbm, ⟨28, _⟩ => ⟨S4x2048x16x32, .f32⟩
  | .hbm, ⟨29, _⟩ => ⟨S4x2048x512, .f32⟩
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]

class Facts₀ : Prop where
  shapeCasts_S4x2048x1536_S4x2048x3x16x32 : S4x2048x1536.ShapeCasts S4x2048x3x16x32
  transposes_S4x2048x3x16x32_S3x4x16x2048x32_2_0_3_1_4 : S4x2048x3x16x32.Transposes [2, 0, 3, 1, 4] S3x4x16x2048x32
  slices_S3x4x16x2048x32_S1x4x16x2048x32_0_0_0_0_0 : S3x4x16x2048x32.Slices ![0, 0, 0, 0, 0] S1x4x16x2048x32
  shapeCasts_S1x4x16x2048x32_S4x16x2048x32 : S1x4x16x2048x32.ShapeCasts S4x16x2048x32
  slices_S3x4x16x2048x32_S1x4x16x2048x32_1_0_0_0_0 : S3x4x16x2048x32.Slices ![1, 0, 0, 0, 0] S1x4x16x2048x32
  slices_S3x4x16x2048x32_S1x4x16x2048x32_2_0_0_0_0 : S3x4x16x2048x32.Slices ![2, 0, 0, 0, 0] S1x4x16x2048x32
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x32_S4x2048x16x32_0_2_1_3 : S4x16x2048x32.Transposes [0, 2, 1, 3] S4x2048x16x32
  shapeCasts_S4x2048x16x32_S4x2048x512 : S4x2048x16x32.ShapeCasts S4x2048x512
  dot_S4x16x2048x32_S4x16x2048x32_S4x16x2048x2048_3_3_2_2_01_01_wf : DotDims.WF S4x16x2048x32 S4x16x2048x32 S4x16x2048x2048 [3] [3] [2] [2] [0, 1] [0, 1]
  dot_S4x16x2048x2048_S4x16x2048x32_S4x16x2048x32_3_2_2_3_01_01_wf : DotDims.WF S4x16x2048x2048 S4x16x2048x32 S4x16x2048x32 [3] [2] [2] [3] [0, 1] [0, 1]

variable [Facts₀]

def dot_S4x16x2048x32_S4x16x2048x32_S4x16x2048x2048_3_3_2_2_01_01 : DotDims S4x16x2048x32 S4x16x2048x32 S4x16x2048x2048 where
  lhsContracting := [3]
  rhsContracting := [3]
  lhsNonContracting := [2]
  rhsNonContracting := [2]
  lhsBatch := [0, 1]
  rhsBatch := [0, 1]
  wf := dot_S4x16x2048x32_S4x16x2048x32_S4x16x2048x2048_3_3_2_2_01_01_wf
def dot_S4x16x2048x2048_S4x16x2048x32_S4x16x2048x32_3_2_2_3_01_01 : DotDims S4x16x2048x2048 S4x16x2048x32 S4x16x2048x32 where
  lhsContracting := [3]
  rhsContracting := [2]
  lhsNonContracting := [2]
  rhsNonContracting := [3]
  lhsBatch := [0, 1]
  rhsBatch := [0, 1]
  wf := dot_S4x16x2048x2048_S4x16x2048x32_S4x16x2048x32_3_2_2_3_01_01_wf

class Facts : Prop extends Facts₀ where

variable [Facts]
-- ==== Proof.SoftmaxAverage.lean ====
/-
  Softmax-weighted averages over a finite index type, on the extended reals.

  For scores `s m` and values `v m` the weights are `w m = exp (s m - M)`, `M` the largest score
  (the fold of `max` from `⊥`), and the normalizer is `L = ∑ m, w m`.  The average can be formed in two
  orders: divide each weight by `L` and then sum against the values, `∑ m, (w m / L) * v m`, or sum the
  unnormalized weights against the values and divide once at the end, `(∑ m, w m * v m) / L`.
  On the extended reals the two differ in general (division does not distribute over sums through an infinity),
  but when every score and every value is a real number, `M` is a real, every weight is a positive real,
  `L` is a positive real, and both orders are the real number `(∑ m, w m * v m) / L`.
-/
import Idealize.ShloMosaic.PureOps.Ideal

noncomputable section

namespace Cert.SoftmaxAverage

open Idealize.ShloMosaic
open scoped BigOperators

variable {ι : Type} [Fintype ι]

/-- A finite sum of real numbers, taken in the extended reals, is the real sum. -/
theorem coe_sum (S : Finset ι) (f : ι → ℝ) : (∑ m ∈ S, (f m : EReal)) = ((∑ m ∈ S, f m : ℝ) : EReal) := by
  classical
  induction S using Finset.induction_on with
  | empty => simp
  | insert a s ha ih => rw [Finset.sum_insert ha, Finset.sum_insert ha, ih, EReal.coe_add]

/-- The largest of finitely many scores, from `⊥`. -/
def rowMax (s : ι → EReal) : EReal := (Finset.univ : Finset ι).fold max ⊥ s

/-- The weight of index `m`: the exponential of its score's distance below the largest score. -/
def weight (s : ι → EReal) (m : ι) : EReal := Ideal.exp (s m - rowMax s)

/-- The normalizer: the sum of the weights. -/
def normalizer (s : ι → EReal) : EReal := ∑ m, weight s m

/-- The average with the division done once, after the weighted sum. -/
def deferred (s v : ι → EReal) : EReal := Ideal.div (∑ m, weight s m * v m) (normalizer s)

/-- The average with every weight divided by the normalizer first. -/
def normalized (s v : ι → EReal) : EReal := ∑ m, Ideal.div (weight s m) (normalizer s) * v m

/-- Over a nonempty index type the largest of real scores is a real. -/
theorem rowMax_real [Nonempty ι] (s : ι → EReal) (hs : ∀ m, ∃ r : ℝ, s m = r) : ∃ M : ℝ, rowMax s = M := by
  have htop : rowMax s ≠ ⊤ := by
    refine ne_of_lt ((Finset.fold_max_lt _).2 ⟨bot_lt_top, fun m _ => ?_⟩)
    obtain ⟨r, hr⟩ := hs m
    rw [hr]; exact EReal.coe_lt_top r
  have hbot : rowMax s ≠ ⊥ := by
    obtain ⟨m0⟩ := ‹Nonempty ι›
    refine ne_of_gt ((Finset.lt_fold_max _).2 (Or.inr ⟨m0, Finset.mem_univ _, ?_⟩))
    obtain ⟨r, hr⟩ := hs m0
    rw [hr]; exact EReal.bot_lt_coe r
  exact ⟨(rowMax s).toReal, (EReal.coe_toReal htop hbot).symm⟩

/-- With real scores and real values the two orders of normalization give the same average. -/
theorem normalized_eq_deferred [Nonempty ι] (s v : ι → EReal) (hs : ∀ m, ∃ r : ℝ, s m = r)
    (hv : ∀ m, ∃ r : ℝ, v m = r) : normalized s v = deferred s v := by
  choose sr hsr using hs
  choose vr hvr using hv
  obtain ⟨M, hM⟩ := rowMax_real s fun m => ⟨sr m, hsr m⟩
  have hw : ∀ m, weight s m = ((Real.exp (sr m - M) : ℝ) : EReal) := fun m => by
    unfold weight
    rw [hM, hsr m, ← EReal.coe_sub, Ideal.exp_coe]
  have hL : normalizer s = ((∑ m, Real.exp (sr m - M) : ℝ) : EReal) := by
    unfold normalizer
    rw [← coe_sum]
    exact Finset.sum_congr rfl fun m _ => hw m
  have hpos : (0 : ℝ) < ∑ m, Real.exp (sr m - M) :=
    Finset.sum_pos (fun m _ => Real.exp_pos _) Finset.univ_nonempty
  unfold normalized deferred
  rw [hL, Ideal.div_coe (ne_of_gt hpos)]
  have e1 : ∀ m, Ideal.div (weight s m) ((∑ m, Real.exp (sr m - M) : ℝ) : EReal) * v m
      = ((Real.exp (sr m - M) * (1 / ∑ m, Real.exp (sr m - M)) * vr m : ℝ) : EReal) := fun m => by
    rw [Ideal.div_coe (ne_of_gt hpos), hw m, hvr m, ← EReal.coe_mul, ← EReal.coe_mul]
  have e2 : ∀ m, weight s m * v m = ((Real.exp (sr m - M) * vr m : ℝ) : EReal) := fun m => by
    rw [hw m, hvr m, ← EReal.coe_mul]
  rw [Finset.sum_congr rfl fun m _ => e1 m, Finset.sum_congr rfl fun m _ => e2 m, coe_sum, coe_sum, ← EReal.coe_mul]
  congr 1
  rw [Finset.sum_mul]
  exact Finset.sum_congr rfl fun m _ => by ring

/-- A scaled inner product of real vectors by a real scale is a real. -/
theorem score_real {κ : Type} [Fintype κ] (q k : κ → EReal) (c : EReal) (hq : ∀ d, ∃ r : ℝ, q d = r)
    (hk : ∀ d, ∃ r : ℝ, k d = r) (hc : ∃ r : ℝ, c = r) : ∃ r : ℝ, (∑ d, q d * k d) * c = r := by
  choose qr hqr using hq
  choose kr hkr using hk
  obtain ⟨cr, hcr⟩ := hc
  refine ⟨(∑ d, qr d * kr d) * cr, ?_⟩
  rw [hcr, EReal.coe_mul, ← coe_sum]
  congr 1
  exact Finset.sum_congr rfl fun d _ => by rw [hqr d, hkr d, EReal.coe_mul]

end Cert.SoftmaxAverage

end
-- ==== Proof.LibColBroadcast.lean ====
/-
  A column broadcast over many columns, read at an index (the companion of the library's one-row form
  `broadcastTo_1b_ab_apply`), and a compare of two small naturals as 32-bit words.
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two naturals below 2³² differ as 32-bit words exactly when they differ. -/
theorem cmpi_ne_ofNat (a b : ℕ) (ha : a < 2 ^ 32) (hb : b < 2 ^ 32) :
    IntOp.cmpi .ne (BitVec.ofNat 32 a) (BitVec.ofNat 32 b) = if a = b then 0#1 else 1#1 := by
  unfold IntOp.cmpi
  by_cases h : a = b
  · rw [if_pos h, h]; simp
  · rw [if_neg h]
    have hb' : (BitVec.ofNat 32 a != BitVec.ofNat 32 b) = true := by
      rw [bne_iff_ne]
      intro e
      have := congrArg BitVec.toNat e
      simp only [BitVec.toNat_ofNat] at this
      rw [Nat.mod_eq_of_lt ha, Nat.mod_eq_of_lt hb] at this
      exact h this
    simp [hb']

end Idealize.ShloMosaic.ValueIdx
-- ==== Proof.LibKeepdims.lean ====
/-
  Two layout reads for reductions that keep their axis: a vector cast to a one-column matrix, and the index a
  reduction over the columns of a matrix inserts.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Reducing an `[a, b]` matrix over its columns: the index inserted at row `i` and column `k` is `(i, k)`. -/
theorem lift_cols_eq {a b : ℕ} (h : (⟨2, ![a, b]⟩ : Shape).Reduces [1] ⟨1, ![a]⟩) (i : Fin a) (k : Fin b) :
    h.lift (ix1 i) k = ix2 i k := by
  funext ax
  match ax with
  | ⟨0, _⟩ => exact Fin.ext rfl
  | ⟨1, _⟩ => exact Fin.ext rfl

/-- The f32 pattern of minus infinity is the bottom of the extended reals. -/
theorem ofBits_neg_inf_f32 : Ideal.ofBits .f32 0xFF800000#32 = ⊥ := by simp [Ideal.ofBits, Ideal.ieee]

end Idealize.ShloMosaic.ValueIdx
-- ==== Proof.HeadBlock.lean ====
/-
  One attention head on one block of 512 query rows.

  From a head's three slices — queries `qh` (512 rows of 32), keys `kh` and values `vh` (2048 rows of 32 each) — the
  kernel forms the scaled scores `s p m = (∑ d, qh p d * kh m d) * c`, subtracts each row's largest score, exponentiates,
  multiplies the unnormalized weights into the values, and only then divides each row by the sum of its weights.  Read at
  row `p` and column `d`, at the ideal values, that is the softmax-weighted average of column `d` of the values over the
  2048 keys, with the division deferred past the weighted sum (`SoftmaxAverage.deferred`).
-/
import proofs.«428814_j16896401343236_3_alg».proof.Proof.Gen.KernelIdeal
import proofs.«428814_j16896401343236_3_alg».proof.Proof.SoftmaxAverage
import proofs.«428814_j16896401343236_3_alg».proof.Proof.LibColBroadcast
import proofs.«428814_j16896401343236_3_alg».proof.Proof.LibKeepdims
import Idealize.ShloMosaic.Lib.ValueIdx
import Idealize.ShloMosaic.Lib.Pipeline.Value
import Idealize.ShloMosaic.PureOps.Ideal.Laws

noncomputable section

namespace Cert.KernelIdeal.Head

open Cert.KernelIdeal Cert.KernelIdeal.Gen Idealize.ShloMosaic Idealize.ShloMosaic.ValueIdx
open scoped BigOperators

section AnyInstance
variable {F : FTy → Type} [FloatOps F]

/-- The scaled scores of a head: every query row of the block against every key row. -/
def scores (qh : FVec F S512x32 .bf16) (kh : FVec F S2048x32 .bf16) : FVec F S512x2048 .f32 :=
  mulf (matmul dot_S512x32_S2048x32_S512x2048_1_1_0_0_n_n none qh kh (constant S512x2048 .f32 0x00000000#32))
    (broadcast S512x2048 (Scalar.ofBits .f32 0x3E3504F3#32))

/-- The unnormalized weights: the exponential of each score's distance below the largest score of its row. -/
def weights (qh : FVec F S512x32 .bf16) (kh : FVec F S2048x32 .bf16) : FVec F S512x2048 .f32 :=
  exp (subf (scores qh kh) (broadcastTo S512x2048 (shapeCast S512x1
    (multiReduction .maximumf [1] S512 (scores qh kh) 0xFF800000#32 reduces_S512x2048_S512 (.inl rfl) rfl)
    shapeCasts_S512_S512x1) broadcasts_S512x1_S512x2048))

/-- The head's output block: the weights times the values, each row then divided by the sum of its weights. -/
def headOut (qh : FVec F S512x32 .bf16) (kh vh : FVec F S2048x32 .bf16) : FVec F S512x32 .f32 :=
  divf (matmul dot_S512x2048_S2048x32_S512x32_1_0_0_1_n_n none (truncf .bf16 (weights qh kh) bitsLt_bf16_f32) vh
      (constant S512x32 .f32 0x00000000#32))
    (broadcastTo S512x32 (shapeCast S512x1
      (multiReduction .add [1] S512 (weights qh kh) 0x00000000#32 reduces_S512x2048_S512 (.inl rfl) rfl)
      shapeCasts_S512_S512x1) broadcasts_S512x1_S512x32)

end AnyInstance

/-! ## The two matrix products as sums over the contracted axis -/

theorem qk_lhs_0 (i : S512x2048.Idx) (q : dot_S512x32_S2048x32_S512x2048_1_1_0_0_n_n.contr.Idx) :
    (dot_S512x32_S2048x32_S512x2048_1_1_0_0_n_n.lhsIdx i q 0).val = (i 0).val := by
  unfold DotDims.lhsIdx
  rw [dif_neg (show ¬(0 : Fin S512x32.rank) ∈ dot_S512x32_S2048x32_S512x2048_1_1_0_0_n_n.lhsBatch by decide), dif_pos (show (0 : Fin S512x32.rank) ∈ dot_S512x32_S2048x32_S512x2048_1_1_0_0_n_n.lhsNonContracting by decide)]
  rfl
theorem qk_lhs_1 (i : S512x2048.Idx) (q : dot_S512x32_S2048x32_S512x2048_1_1_0_0_n_n.contr.Idx) :
    (dot_S512x32_S2048x32_S512x2048_1_1_0_0_n_n.lhsIdx i q 1).val = (q ⟨0, by decide⟩).val :=
  dot_S512x32_S2048x32_S512x2048_1_1_0_0_n_n.lhsIdx_val_of_single rfl i q
theorem qk_rhs_0 (i : S512x2048.Idx) (q : dot_S512x32_S2048x32_S512x2048_1_1_0_0_n_n.contr.Idx) :
    (dot_S512x32_S2048x32_S512x2048_1_1_0_0_n_n.rhsIdx i q 0).val = (i 1).val := by
  unfold DotDims.rhsIdx
  rw [dif_neg (show ¬(0 : Fin S2048x32.rank) ∈ dot_S512x32_S2048x32_S512x2048_1_1_0_0_n_n.rhsBatch by decide), dif_pos (show (0 : Fin S2048x32.rank) ∈ dot_S512x32_S2048x32_S512x2048_1_1_0_0_n_n.rhsNonContracting by decide)]
  rfl
theorem qk_rhs_1 (i : S512x2048.Idx) (q : dot_S512x32_S2048x32_S512x2048_1_1_0_0_n_n.contr.Idx) :
    (dot_S512x32_S2048x32_S512x2048_1_1_0_0_n_n.rhsIdx i q 1).val = (q ⟨0, by decide⟩).val :=
  dot_S512x32_S2048x32_S512x2048_1_1_0_0_n_n.rhsIdx_val_of_single rfl i q

/-- Queries against keys: entry `(p, m)` is the inner product of query row `p` and key row `m`. -/
theorem qk_apply (qh : FVec Ideal S512x32 .bf16) (kh : FVec Ideal S2048x32 .bf16) (p : Fin 512) (m : Fin 2048) :
    matmul dot_S512x32_S2048x32_S512x2048_1_1_0_0_n_n none qh kh (constant S512x2048 .f32 0x00000000#32) (ix2 p m)
      = ∑ d : Fin 32, qh (ix2 p d) * kh (ix2 m d) := by
  simp only [matmul]
  rw [Ideal.matmul_constant_zero_apply, ← Equiv.sum_comp (ValueIdx.contrEquiv1 dot_S512x32_S2048x32_S512x2048_1_1_0_0_n_n 32 rfl rfl).symm]
  refine Finset.sum_congr rfl fun k _ => ?_
  have hk := ValueIdx.contrEquiv1_symm_val dot_S512x32_S2048x32_S512x2048_1_1_0_0_n_n 32 rfl rfl k
  have el : dot_S512x32_S2048x32_S512x2048_1_1_0_0_n_n.lhsIdx (ix2 p m) ((ValueIdx.contrEquiv1 dot_S512x32_S2048x32_S512x2048_1_1_0_0_n_n 32 rfl rfl).symm k) = ix2 p k := funext fun a => Fin.ext (by
    match a with
    | ⟨0, _⟩ => exact qk_lhs_0 _ _
    | ⟨1, _⟩ => exact (qk_lhs_1 _ _).trans hk)
  have er : dot_S512x32_S2048x32_S512x2048_1_1_0_0_n_n.rhsIdx (ix2 p m) ((ValueIdx.contrEquiv1 dot_S512x32_S2048x32_S512x2048_1_1_0_0_n_n 32 rfl rfl).symm k) = ix2 m k := funext fun a => Fin.ext (by
    match a with
    | ⟨0, _⟩ => exact qk_rhs_0 _ _
    | ⟨1, _⟩ => exact (qk_rhs_1 _ _).trans hk)
  rw [el, er]

theorem wv_lhs_0 (i : S512x32.Idx) (q : dot_S512x2048_S2048x32_S512x32_1_0_0_1_n_n.contr.Idx) :
    (dot_S512x2048_S2048x32_S512x32_1_0_0_1_n_n.lhsIdx i q 0).val = (i 0).val := by
  unfold DotDims.lhsIdx
  rw [dif_neg (show ¬(0 : Fin S512x2048.rank) ∈ dot_S512x2048_S2048x32_S512x32_1_0_0_1_n_n.lhsBatch by decide), dif_pos (show (0 : Fin S512x2048.rank) ∈ dot_S512x2048_S2048x32_S512x32_1_0_0_1_n_n.lhsNonContracting by decide)]
  rfl
theorem wv_lhs_1 (i : S512x32.Idx) (q : dot_S512x2048_S2048x32_S512x32_1_0_0_1_n_n.contr.Idx) :
    (dot_S512x2048_S2048x32_S512x32_1_0_0_1_n_n.lhsIdx i q 1).val = (q ⟨0, by decide⟩).val :=
  dot_S512x2048_S2048x32_S512x32_1_0_0_1_n_n.lhsIdx_val_of_single rfl i q
theorem wv_rhs_0 (i : S512x32.Idx) (q : dot_S512x2048_S2048x32_S512x32_1_0_0_1_n_n.contr.Idx) :
    (dot_S512x2048_S2048x32_S512x32_1_0_0_1_n_n.rhsIdx i q 0).val = (q ⟨0, by decide⟩).val :=
  dot_S512x2048_S2048x32_S512x32_1_0_0_1_n_n.rhsIdx_val_of_single rfl i q
theorem wv_rhs_1 (i : S512x32.Idx) (q : dot_S512x2048_S2048x32_S512x32_1_0_0_1_n_n.contr.Idx) :
    (dot_S512x2048_S2048x32_S512x32_1_0_0_1_n_n.rhsIdx i q 1).val = (i 1).val := by
  unfold DotDims.rhsIdx
  rw [dif_neg (show ¬(1 : Fin S2048x32.rank) ∈ dot_S512x2048_S2048x32_S512x32_1_0_0_1_n_n.rhsBatch by decide), dif_pos (show (1 : Fin S2048x32.rank) ∈ dot_S512x2048_S2048x32_S512x32_1_0_0_1_n_n.rhsNonContracting by decide)]
  rfl

/-- Weights against values: entry `(p, d)` sums, over the keys, the weight of key `m` times column `d` of its value row. -/
theorem wv_apply (w : FVec Ideal S512x2048 .bf16) (vh : FVec Ideal S2048x32 .bf16) (p : Fin 512) (d : Fin 32) :
    matmul dot_S512x2048_S2048x32_S512x32_1_0_0_1_n_n none w vh (constant S512x32 .f32 0x00000000#32) (ix2 p d)
      = ∑ m : Fin 2048, w (ix2 p m) * vh (ix2 m d) := by
  simp only [matmul]
  rw [Ideal.matmul_constant_zero_apply, ← Equiv.sum_comp (ValueIdx.contrEquiv1 dot_S512x2048_S2048x32_S512x32_1_0_0_1_n_n 2048 rfl rfl).symm]
  refine Finset.sum_congr rfl fun k _ => ?_
  have hk := ValueIdx.contrEquiv1_symm_val dot_S512x2048_S2048x32_S512x32_1_0_0_1_n_n 2048 rfl rfl k
  have el : dot_S512x2048_S2048x32_S512x32_1_0_0_1_n_n.lhsIdx (ix2 p d) ((ValueIdx.contrEquiv1 dot_S512x2048_S2048x32_S512x32_1_0_0_1_n_n 2048 rfl rfl).symm k) = ix2 p k := funext fun a => Fin.ext (by
    match a with
    | ⟨0, _⟩ => exact wv_lhs_0 _ _
    | ⟨1, _⟩ => exact (wv_lhs_1 _ _).trans hk)
  have er : dot_S512x2048_S2048x32_S512x32_1_0_0_1_n_n.rhsIdx (ix2 p d) ((ValueIdx.contrEquiv1 dot_S512x2048_S2048x32_S512x32_1_0_0_1_n_n 2048 rfl rfl).symm k) = ix2 k d := funext fun a => Fin.ext (by
    match a with
    | ⟨0, _⟩ => exact (wv_rhs_0 _ _).trans hk
    | ⟨1, _⟩ => exact wv_rhs_1 _ _)
  rw [el, er]

/-! ## The head at an index -/

/-- Row `p` of the scaled scores, as a function of the key. -/
def scoreRow (qh : FVec Ideal S512x32 .bf16) (kh : FVec Ideal S2048x32 .bf16) (p : Fin 512) : Fin 2048 → EReal :=
  fun m => (∑ d : Fin 32, qh (ix2 p d) * kh (ix2 m d)) * Ideal.ofBits .f32 0x3E3504F3#32

theorem scores_apply (qh : FVec Ideal S512x32 .bf16) (kh : FVec Ideal S2048x32 .bf16) (p : Fin 512) (m : Fin 2048) :
    scores qh kh (ix2 p m) = scoreRow qh kh p m := by
  unfold scores scoreRow
  rw [mulf_apply, qk_apply]
  rfl

/-- The largest entry of row `p`, kept as a column and spread over the row again, read at `(p, m)`. -/
theorem rowMax_apply (s : FVec Ideal S512x2048 .f32) (p : Fin 512) (m : Fin 2048) :
    broadcastTo S512x2048 (shapeCast S512x1
      (multiReduction .maximumf [1] S512 s 0xFF800000#32 reduces_S512x2048_S512 (.inl rfl) rfl)
      shapeCasts_S512_S512x1) broadcasts_S512x1_S512x2048 (ix2 p m)
      = SoftmaxAverage.rowMax (fun m' : Fin 2048 => s (ix2 p m')) := by
  rw [broadcastTo_a1_ab_apply, shapeCast_a_a1_apply]
  refine (Ideal.multiReduction_maximumf_single s 0xFF800000#32 reduces_S512x2048_S512 (.inl rfl) rfl (ix1 p)).trans ?_
  unfold SoftmaxAverage.rowMax
  show (Finset.univ : Finset (Fin 2048)).fold max (Ideal.ofBits .f32 0xFF800000#32) (s ∘ reduces_S512x2048_S512.lift (ix1 p)) = _
  rw [ofBits_neg_inf_f32]
  have e : (s ∘ reduces_S512x2048_S512.lift (ix1 p)) = fun m' : Fin 2048 => s (ix2 p m') :=
    funext fun k => congrArg s (lift_cols_eq reduces_S512x2048_S512 p k)
  rw [e]
  rfl

/-- The sum of row `p`, kept as a column and spread over 32 columns, read at `(p, d)`. -/
theorem rowSum_apply (w : FVec Ideal S512x2048 .f32) (p : Fin 512) (d : Fin 32) :
    broadcastTo S512x32 (shapeCast S512x1
      (multiReduction .add [1] S512 w 0x00000000#32 reduces_S512x2048_S512 (.inl rfl) rfl)
      shapeCasts_S512_S512x1) broadcasts_S512x1_S512x32 (ix2 p d)
      = ∑ m : Fin 2048, w (ix2 p m) := by
  rw [broadcastTo_a1_ab_apply, shapeCast_a_a1_apply]
  refine (Ideal.multiReduction_add_single w 0x00000000#32 reduces_S512x2048_S512 (.inl rfl) rfl (ix1 p)).trans ?_
  show ∑ k : Fin 2048, w (reduces_S512x2048_S512.lift (ix1 p) k) = _
  exact Finset.sum_congr rfl fun k _ => congrArg w (lift_cols_eq reduces_S512x2048_S512 p k)

theorem weights_apply (qh : FVec Ideal S512x32 .bf16) (kh : FVec Ideal S2048x32 .bf16) (p : Fin 512) (m : Fin 2048) :
    weights qh kh (ix2 p m) = SoftmaxAverage.weight (scoreRow qh kh p) m := by
  unfold weights SoftmaxAverage.weight
  show Ideal.exp (subf (scores qh kh) _ (ix2 p m)) = _
  rw [subf_apply, rowMax_apply, scores_apply]
  exact congrArg (fun f => Ideal.exp (scoreRow qh kh p m - SoftmaxAverage.rowMax f)) (funext fun m' => scores_apply qh kh p m')

/-- THE HEAD AT `(p, d)`: the average of column `d` of the values under the softmax weights of query row `p`, the
    division by the normalizer done after the weighted sum. -/
theorem headOut_apply (qh : FVec Ideal S512x32 .bf16) (kh vh : FVec Ideal S2048x32 .bf16) (p : Fin 512) (d : Fin 32) :
    headOut qh kh vh (ix2 p d) = SoftmaxAverage.deferred (scoreRow qh kh p) (fun m => vh (ix2 m d)) := by
  unfold headOut SoftmaxAverage.deferred SoftmaxAverage.normalizer
  rw [divf_apply, wv_apply, rowSum_apply]
  refine congrArg₂ Ideal.div (Finset.sum_congr rfl fun m _ => ?_) (Finset.sum_congr rfl fun m _ => weights_apply qh kh p m)
  rw [truncf_apply, weights_apply]

end Cert.KernelIdeal.Head

end
-- ==== Proof.AttentionSpec.lean ====
/-
  Multi-head self-attention of a packed input, as ONE function of the input array.

  The input `x` has shape [4, 2048, 1536]: batch, sequence position, and 1536 columns laid out as three parts
  (queries, keys, values) of 16 heads of 32 lanes each, so part `s`, head `h`, lane `d` is column `(s * 16 + h) * 32 + d`.
  For batch `b`, head `h` and query position `n`, the score of key position `m` is the inner product over the 32 lanes of
  query row `n` and key row `m`, times a scale `c`; the output at `(b, n, h * 32 + d)` is the softmax-weighted average over
  `m` of lane `d` of the value rows.  `deferredArr` divides by the normalizer after the weighted sum, `normalizedArr`
  before it; for an input of real numbers the two are the same array.
-/
import Idealize.ShloMosaic.Lib.ValueIdx
import proofs.«428814_j16896401343236_3_alg».proof.Proof.SoftmaxAverage

noncomputable section

namespace Cert.Attention

open Idealize.ShloMosaic Idealize.ShloMosaic.ValueIdx Cert.SoftmaxAverage
open scoped BigOperators

/-- The input's shape and the output's. -/
abbrev SIn : Shape := ⟨3, ![4, 2048, 1536]⟩
abbrev SOut : Shape := ⟨3, ![4, 2048, 512]⟩

/-- The scale the scores are multiplied by: the f32 nearest to 1/√32, as the extended real it denotes. -/
def scale : EReal := Ideal.ofBits .f32 0x3E3504F3#32

/-- Part `s` (0 queries, 1 keys, 2 values), head `h`, lane `d` of the 1536 input columns. -/
def col (s : Fin 3) (h : Fin 16) (d : Fin 32) : Fin 1536 :=
  ⟨(s.val * 16 + h.val) * 32 + d.val, by have := s.isLt; have := h.isLt; have := d.isLt; omega⟩

/-- Head `h`, lane `d` of the 512 output columns. -/
def outCol (h : Fin 16) (d : Fin 32) : Fin 512 := ⟨h.val * 32 + d.val, by have := h.isLt; have := d.isLt; omega⟩

/-- Every output column is a head's lane. -/
theorem exists_outCol (j : Fin 512) : ∃ (h : Fin 16) (d : Fin 32), j = outCol h d :=
  ⟨⟨j.val / 32, by have := j.isLt; omega⟩, ⟨j.val % 32, Nat.mod_lt _ (by decide)⟩, Fin.ext (by show j.val = j.val / 32 * 32 + j.val % 32; omega)⟩

/-- The scores of query position `n` against every key position, in batch `b` and head `h`. -/
def scoreOf (x : SIn.Idx → EReal) (b : Fin 4) (h : Fin 16) (n : Fin 2048) : Fin 2048 → EReal :=
  fun m => (∑ d : Fin 32, x (ix3 b n (col 0 h d)) * x (ix3 b m (col 1 h d))) * scale

/-- Lane `d` of the value rows of batch `b` and head `h`. -/
def valueOf (x : SIn.Idx → EReal) (b : Fin 4) (h : Fin 16) (d : Fin 32) : Fin 2048 → EReal :=
  fun m => x (ix3 b m (col 2 h d))

/-- The attention output with the division by the normalizer done after the weighted sum. -/
def deferredAt (x : SIn.Idx → EReal) (b : Fin 4) (n : Fin 2048) (h : Fin 16) (d : Fin 32) : EReal :=
  deferred (scoreOf x b h n) (valueOf x b h d)

/-- The attention output with the weights normalized before the weighted sum. -/
def normalizedAt (x : SIn.Idx → EReal) (b : Fin 4) (n : Fin 2048) (h : Fin 16) (d : Fin 32) : EReal :=
  normalized (scoreOf x b h n) (valueOf x b h d)

/-- The whole output array, division deferred. -/
def deferredArr (x : SIn.Idx → EReal) : SOut.Idx → EReal := fun j =>
  deferredAt x ⟨(j 0).val, (j 0).isLt⟩ ⟨(j 1).val, (j 1).isLt⟩
    ⟨(j 2).val / 32, by have : (j 2).val < 512 := (j 2).isLt; omega⟩ ⟨(j 2).val % 32, Nat.mod_lt _ (by decide)⟩

theorem deferredArr_apply (x : SIn.Idx → EReal) (b : Fin 4) (n : Fin 2048) (h : Fin 16) (d : Fin 32) :
    deferredArr x (ix3 b n (outCol h d)) = deferredAt x b n h d := by
  unfold deferredArr
  have hh : (⟨(h.val * 32 + d.val) / 32, by have := h.isLt; have := d.isLt; omega⟩ : Fin 16) = h :=
    Fin.ext (by show (h.val * 32 + d.val) / 32 = h.val; have := d.isLt; omega)
  have hd : (⟨(h.val * 32 + d.val) % 32, Nat.mod_lt _ (by decide)⟩ : Fin 32) = d :=
    Fin.ext (by show (h.val * 32 + d.val) % 32 = d.val; have := d.isLt; omega)
  show deferredAt x b n ⟨(h.val * 32 + d.val) / 32, _⟩ ⟨(h.val * 32 + d.val) % 32, _⟩ = _
  rw [hh, hd]

/-- An array indexed like the output is `deferredArr x` as soon as it is at every batch, position, head and lane. -/
theorem eq_deferredArr (x : SIn.Idx → EReal) (y : SOut.Idx → EReal)
    (hy : ∀ (b : Fin 4) (n : Fin 2048) (h : Fin 16) (d : Fin 32), y (ix3 b n (outCol h d)) = deferredAt x b n h d) :
    y = deferredArr x := by
  funext j
  obtain ⟨h, d, hj⟩ := exists_outCol ⟨(j 2).val, (j 2).isLt⟩
  have e : j = ix3 (⟨(j 0).val, (j 0).isLt⟩ : Fin 4) (⟨(j 1).val, (j 1).isLt⟩ : Fin 2048) (outCol h d) := by
    funext a
    match a with
    | ⟨0, _⟩ => rfl
    | ⟨1, _⟩ => rfl
    | ⟨2, _⟩ => exact Fin.ext (congrArg Fin.val hj)
  rw [e]
  exact (hy _ _ h d).trans (deferredArr_apply x _ _ h d).symm

/-- For an input of real numbers, normalizing before or after the weighted sum gives the same output. -/
theorem normalizedAt_eq_deferredAt (x : SIn.Idx → EReal) (hx : ∀ i, ∃ r : ℝ, x i = r)
    (b : Fin 4) (n : Fin 2048) (h : Fin 16) (d : Fin 32) : normalizedAt x b n h d = deferredAt x b n h d := by
  unfold normalizedAt deferredAt
  refine normalized_eq_deferred _ _ (fun m => ?_) (fun m => hx _)
  exact score_real _ _ _ (fun d' => hx _) (fun d' => hx _) ⟨_, by unfold scale; simp [Ideal.ofBits, Ideal.ieee, -EReal.coe_mul]; rfl⟩

end Cert.Attention

end
-- ==== Proof.KernelHeads.lean ====
/-
  What the kernel's body leaves in its output block.

  The body cuts the three loaded blocks — 512 query rows, and all 2048 key rows and value rows of the batch, each 512
  columns wide — into 16 heads of 32 columns, computes every head's attention block (HeadBlock.lean) and sets the 16 results
  side by side.  So at row `p` and column `32 n + d` the output block holds head `n`'s softmax-weighted average of lane `d`
  of the value rows, the scores being the inner products of query row `p` with the key rows over head `n`'s 32 columns.
-/
import proofs.«428814_j16896401343236_3_alg».proof.Proof.ValueKernelIdeal
import proofs.«428814_j16896401343236_3_alg».proof.Proof.HeadBlock
import proofs.«428814_j16896401343236_3_alg».proof.Proof.AttentionSpec
import Idealize.ShloMosaic.Lib.ValueLayout

noncomputable section

namespace Cert.KernelIdeal.Heads

open Cert.KernelIdeal Cert.KernelIdeal.Gen Cert.KernelIdeal.GenP Cert.KernelIdeal.ValueP Cert.KernelIdeal.Head
open Idealize.ShloMosaic Idealize.ShloMosaic.ValueIdx Cert.Attention Cert.SoftmaxAverage
open scoped BigOperators

/-- Head `n`'s average at row `p`, lane `d`, from the three loaded blocks: scores over the head's 32 columns of the query
    block's row `p` and the key block's rows, values from the same columns of the value block. -/
def blockAvg (P0 : Vec Ideal S1x512x512 .bf16) (P1 P2 : Vec Ideal S1x2048x512 .bf16) (p : Fin 512) (n : Fin 16) (d : Fin 32) : EReal :=
  deferred (fun m : Fin 2048 => (∑ d' : Fin 32, P0 (ix3 (0 : Fin 1) p (outCol n d')) * P1 (ix3 (0 : Fin 1) m (outCol n d'))) * scale)
    (fun m : Fin 2048 => P2 (ix3 (0 : Fin 1) m (outCol n d)))

/-- The head computed from the slices at column offset `o = 32 n` of the three blocks is `blockAvg` at head `n`. -/
theorem head_of_block (o : ℕ) (hq : S512x512.Slices ![0, o] S512x32) (hk hv : S2048x512.Slices ![0, o] S2048x32)
    (P0 : Vec Ideal S1x512x512 .bf16) (P1 P2 : Vec Ideal S1x2048x512 .bf16) (p : Fin 512) (n : Fin 16) (d : Fin 32)
    (ho : o = n.val * 32) :
    headOut (F := Ideal) (extractStridedSlice S512x32 ![0, o] (shapeCast S512x512 P0 shapeCasts_S1x512x512_S512x512) hq)
        (extractStridedSlice S2048x32 ![0, o] (shapeCast S2048x512 P1 shapeCasts_S1x2048x512_S2048x512) hk)
        (extractStridedSlice S2048x32 ![0, o] (shapeCast S2048x512 P2 shapeCasts_S1x2048x512_S2048x512) hv) (ix2 p d)
      = blockAvg P0 P1 P2 p n d := by
  rw [headOut_apply]
  unfold blockAvg scoreRow scale
  have hc : ∀ d' : Fin 32, (outCol n d').val = o + d'.val := fun d' => by rw [ho]; rfl
  refine congrArg₂ deferred (funext fun m => congrArg (· * Ideal.ofBits .f32 0x3E3504F3#32) (Finset.sum_congr rfl fun d' _ => ?_)) (funext fun m => ?_)
  · exact congrArg₂ (· * ·)
      ((slice2_axis1_apply o _ hq p d' (outCol n d') (hc d')).trans (shapeCast_1ab_ab_apply P0 _ p (outCol n d')))
      ((slice2_axis1_apply o _ hk m d' (outCol n d') (hc d')).trans (shapeCast_1ab_ab_apply P1 _ m (outCol n d')))
  · exact (slice2_axis1_apply o _ hv m d (outCol n d) (hc d)).trans (shapeCast_1ab_ab_apply P2 _ m (outCol n d))

/-- Operand `n` of the concatenation is head `n`: each of the 16 is the head computation at its own column offset. -/
theorem cat_at (P0 : Vec Ideal S1x512x512 .bf16) (P1 P2 : Vec Ideal S1x2048x512 .bf16) (n : Fin 16) (p : Fin 512) (d : Fin 32) :
    Cat3_0 P0 P1 P2 n (ix2 p d) = blockAvg P0 P1 P2 p n d := by
  match n with
  | ⟨0, _⟩ => exact head_of_block 0 slices_S512x512_o0_0_S512x32 slices_S2048x512_o0_0_S2048x32 slices_S2048x512_o0_0_S2048x32 P0 P1 P2 p _ d rfl
  | ⟨1, _⟩ => exact head_of_block 32 slices_S512x512_o0_32_S512x32 slices_S2048x512_o0_32_S2048x32 slices_S2048x512_o0_32_S2048x32 P0 P1 P2 p _ d rfl
  | ⟨2, _⟩ => exact head_of_block 64 slices_S512x512_o0_64_S512x32 slices_S2048x512_o0_64_S2048x32 slices_S2048x512_o0_64_S2048x32 P0 P1 P2 p _ d rfl
  | ⟨3, _⟩ => exact head_of_block 96 slices_S512x512_o0_96_S512x32 slices_S2048x512_o0_96_S2048x32 slices_S2048x512_o0_96_S2048x32 P0 P1 P2 p _ d rfl
  | ⟨4, _⟩ => exact head_of_block 128 slices_S512x512_o0_128_S512x32 slices_S2048x512_o0_128_S2048x32 slices_S2048x512_o0_128_S2048x32 P0 P1 P2 p _ d rfl
  | ⟨5, _⟩ => exact head_of_block 160 slices_S512x512_o0_160_S512x32 slices_S2048x512_o0_160_S2048x32 slices_S2048x512_o0_160_S2048x32 P0 P1 P2 p _ d rfl
  | ⟨6, _⟩ => exact head_of_block 192 slices_S512x512_o0_192_S512x32 slices_S2048x512_o0_192_S2048x32 slices_S2048x512_o0_192_S2048x32 P0 P1 P2 p _ d rfl
  | ⟨7, _⟩ => exact head_of_block 224 slices_S512x512_o0_224_S512x32 slices_S2048x512_o0_224_S2048x32 slices_S2048x512_o0_224_S2048x32 P0 P1 P2 p _ d rfl
  | ⟨8, _⟩ => exact head_of_block 256 slices_S512x512_o0_256_S512x32 slices_S2048x512_o0_256_S2048x32 slices_S2048x512_o0_256_S2048x32 P0 P1 P2 p _ d rfl
  | ⟨9, _⟩ => exact head_of_block 288 slices_S512x512_o0_288_S512x32 slices_S2048x512_o0_288_S2048x32 slices_S2048x512_o0_288_S2048x32 P0 P1 P2 p _ d rfl
  | ⟨10, _⟩ => exact head_of_block 320 slices_S512x512_o0_320_S512x32 slices_S2048x512_o0_320_S2048x32 slices_S2048x512_o0_320_S2048x32 P0 P1 P2 p _ d rfl
  | ⟨11, _⟩ => exact head_of_block 352 slices_S512x512_o0_352_S512x32 slices_S2048x512_o0_352_S2048x32 slices_S2048x512_o0_352_S2048x32 P0 P1 P2 p _ d rfl
  | ⟨12, _⟩ => exact head_of_block 384 slices_S512x512_o0_384_S512x32 slices_S2048x512_o0_384_S2048x32 slices_S2048x512_o0_384_S2048x32 P0 P1 P2 p _ d rfl
  | ⟨13, _⟩ => exact head_of_block 416 slices_S512x512_o0_416_S512x32 slices_S2048x512_o0_416_S2048x32 slices_S2048x512_o0_416_S2048x32 P0 P1 P2 p _ d rfl
  | ⟨14, _⟩ => exact head_of_block 448 slices_S512x512_o0_448_S512x32 slices_S2048x512_o0_448_S2048x32 slices_S2048x512_o0_448_S2048x32 P0 P1 P2 p _ d rfl
  | ⟨15, _⟩ => exact head_of_block 480 slices_S512x512_o0_480_S512x32 slices_S2048x512_o0_480_S2048x32 slices_S2048x512_o0_480_S2048x32 P0 P1 P2 p _ d rfl
  | ⟨_ + 16, h⟩ => exact absurd h (Nat.not_lt.2 (Nat.le_add_left _ _))

theorem hz3 : (![0, 0, 0] : Fin 3 → Nat) = fun _ => 0 := funext fun a => by fin_cases a <;> rfl

/-- THE OUTPUT BLOCK at row `p`, column `32 n + d`, from the three input blocks. -/
theorem out_at (x0 : Vec Ideal S1x512x512 .bf16) (x1 x2 : Vec Ideal S1x2048x512 .bf16) (p : Fin 512) (n : Fin 16) (d : Fin 32) :
    out0_3 x0 x1 x2 (ix3 (0 : Fin 1) p (outCol n d)) = blockAvg x0 x1 x2 p n d := by
  unfold out0_3
  simp only [View.ld_unit_zero (S := S1x512x512) hz3, View.ld_unit_zero (S := S1x2048x512) hz3]
  rw [canon3_eq]
  have hs : csel3_0 (ix3 (0 : Fin 1) p (outCol n d)) = n :=
    Fin.ext (by show (n.val * 32 + d.val) / 32 = n.val; have := d.isLt; omega)
  have hi : ix3_0 (ix3 (0 : Fin 1) p (outCol n d)) = ix2 p d := by
    funext a
    apply Fin.ext
    match a with
    | ⟨0, _⟩ => rfl
    | ⟨1, _⟩ => show (n.val * 32 + d.val) % 32 = d.val; have := d.isLt; omega
  show Cat3_0 x0 x1 x2 (csel3_0 (ix3 (0 : Fin 1) p (outCol n d))) (ix3_0 (ix3 (0 : Fin 1) p (outCol n d))) = _
  rw [hs, hi, cat_at]

end Cert.KernelIdeal.Heads

end
-- ==== Proof.KernelArray.lean ====
/-
  From the kernel's blocks to its whole output array.

  The wrapper cuts the input's 1536 columns into three arrays of 512 (queries, keys, values).  Grid point `t = (b, i)`
  gives the body rows `512 i … 512 i + 511` of batch `b` of the queries and all 2048 rows of batch `b` of the keys and of the
  values, and the body's block goes back to rows `512 i …` of batch `b` of the output.  So point `t` writes block `t` of
  `Attention.deferredArr x`, the sixteen blocks tile the output, and the run ends with the output array at
  `deferredArr x`.
-/
import proofs.«428814_j16896401343236_3_alg».proof.Proof.KernelHeads
import Idealize.ShloMosaic.Lib.StableHlo.Run

noncomputable section

namespace Cert.KernelIdeal.Arr

open Cert.KernelIdeal Cert.KernelIdeal.Gen Cert.KernelIdeal.GenP Cert.KernelIdeal.ValueP Cert.KernelIdeal.Heads
open Idealize.ShloMosaic Idealize.ShloMosaic.TcCoe Idealize.SL.Sem Idealize.ShloMosaic.ValueIdx
open Cert.Attention Cert.SoftmaxAverage
open Idealize.ShloMosaic.Pipeline (Dat)
open scoped BigOperators

variable (m : (ℓ : Loc nD τ sig) → Buf (Elt Ideal) ℓ) (ρ : Dev nD → PrngReg)

/-- The input array on core `c`. -/
abbrev xin (c : Dev nD) : SIn.Idx → EReal := m ((c : Thread nD τ).loc main_arg0)

/-- Column `j` of part `s` of the input's 1536 columns. -/
def partCol (s : Fin 3) (j : Fin 512) : Fin 1536 := ⟨s.val * 512 + j.val, by have := s.isLt; have := j.isLt; omega⟩

/-- Part `s`, head `h`, lane `d` is column `32 h + d` of part `s`. -/
theorem col_eq (s : Fin 3) (h : Fin 16) (d : Fin 32) : col s h d = partCol s (outCol h d) :=
  Fin.ext (by show (s.val * 16 + h.val) * 32 + d.val = s.val * 512 + (h.val * 32 + d.val); omega)

/-! ## The three arrays the region reads: slices of the input -/

theorem Vq_eq (c : Dev nD) : (V m c main_v1 : S4x2048x512.Idx → EReal)
    = truncf (F := Ideal) .bf16 (extractStridedSlice S4x2048x512 ![0, 0, 0] (xin m c) slices_S4x2048x1536_S4x2048x512_0_0_0) bitsLt_bf16_f32 := by
  dsimp only [GenP.V, Gen.hostOps0]; after_results

theorem Vk_eq (c : Dev nD) : (V m c main_v3 : S4x2048x512.Idx → EReal)
    = truncf (F := Ideal) .bf16 (extractStridedSlice S4x2048x512 ![0, 0, 512] (xin m c) slices_S4x2048x1536_S4x2048x512_0_0_512) bitsLt_bf16_f32 := by
  dsimp only [GenP.V, Gen.hostOps0]; after_results

theorem Vv_eq (c : Dev nD) : (V m c main_v5 : S4x2048x512.Idx → EReal)
    = truncf (F := Ideal) .bf16 (extractStridedSlice S4x2048x512 ![0, 0, 1024] (xin m c) slices_S4x2048x1536_S4x2048x512_0_0_1024) bitsLt_bf16_f32 := by
  dsimp only [GenP.V, Gen.hostOps0]; after_results

/-- The queries array is part 0 of the input's columns (the change of format is the identity). -/
theorem Vq_at (c : Dev nD) (b : Fin 4) (n : Fin 2048) (j : Fin 512) :
    (V m c main_v1 : S4x2048x512.Idx → EReal) (ix3 b n j) = xin m c (ix3 b n (partCol 0 j)) := by
  rw [Vq_eq]
  show extractStridedSlice S4x2048x512 ![0, 0, 0] (xin m c) slices_S4x2048x1536_S4x2048x512_0_0_0 (ix3 b n j) = _
  exact extractStridedSlice_apply _ _ _ _ _ (fun a => match a with
    | ⟨0, _⟩ => (Nat.zero_add _).symm
    | ⟨1, _⟩ => (Nat.zero_add _).symm
    | ⟨2, _⟩ => by show 0 * 512 + j.val = 0 + j.val; omega)

/-- The keys array is part 1. -/
theorem Vk_at (c : Dev nD) (b : Fin 4) (n : Fin 2048) (j : Fin 512) :
    (V m c main_v3 : S4x2048x512.Idx → EReal) (ix3 b n j) = xin m c (ix3 b n (partCol 1 j)) := by
  rw [Vk_eq]
  show extractStridedSlice S4x2048x512 ![0, 0, 512] (xin m c) slices_S4x2048x1536_S4x2048x512_0_0_512 (ix3 b n j) = _
  exact extractStridedSlice_apply _ _ _ _ _ (fun a => match a with
    | ⟨0, _⟩ => (Nat.zero_add _).symm
    | ⟨1, _⟩ => (Nat.zero_add _).symm
    | ⟨2, _⟩ => by show 1 * 512 + j.val = 512 + j.val; omega)

/-- The values array is part 2. -/
theorem Vv_at (c : Dev nD) (b : Fin 4) (n : Fin 2048) (j : Fin 512) :
    (V m c main_v5 : S4x2048x512.Idx → EReal) (ix3 b n j) = xin m c (ix3 b n (partCol 2 j)) := by
  rw [Vv_eq]
  show extractStridedSlice S4x2048x512 ![0, 0, 1024] (xin m c) slices_S4x2048x1536_S4x2048x512_0_0_1024 (ix3 b n j) = _
  exact extractStridedSlice_apply _ _ _ _ _ (fun a => match a with
    | ⟨0, _⟩ => (Nat.zero_add _).symm
    | ⟨1, _⟩ => (Nat.zero_add _).symm
    | ⟨2, _⟩ => by show 2 * 512 + j.val = 1024 + j.val; omega)

/-! ## A point's output block from blocks that are pieces of the input -/

/-- If the query block is rows `R … R + 511` of batch `B` of the input's part 0, and the key and value blocks are batch `B` of parts
    1 and 2, then the body's block at row `p`, column `32 n + d` is the attention output at `(B, R + p, n, d)`. -/
theorem block_at (x0 : Vec Ideal S1x512x512 .bf16) (x1 x2 : Vec Ideal S1x2048x512 .bf16) (X : SIn.Idx → EReal) (B : Fin 4)
    (row : Fin 512 → Fin 2048)
    (h0 : ∀ (p : Fin 512) (j : Fin 512), x0 (ix3 (0 : Fin 1) p j) = X (ix3 B (row p) (partCol 0 j)))
    (h1 : ∀ (r : Fin 2048) (j : Fin 512), x1 (ix3 (0 : Fin 1) r j) = X (ix3 B r (partCol 1 j)))
    (h2 : ∀ (r : Fin 2048) (j : Fin 512), x2 (ix3 (0 : Fin 1) r j) = X (ix3 B r (partCol 2 j)))
    (p : Fin 512) (n : Fin 16) (d : Fin 32) :
    out0_3 x0 x1 x2 (ix3 (0 : Fin 1) p (outCol n d)) = deferredAt X B (row p) n d := by
  rw [out_at]
  unfold blockAvg deferredAt scoreOf valueOf
  refine congrArg₂ deferred (funext fun mm => congrArg (· * scale) (Finset.sum_congr rfl fun d' _ => ?_)) (funext fun mm => ?_)
  · rw [h0, h1, col_eq, col_eq]
  · rw [h2, col_eq]

/-! ## The windows' index maps over the grid -/

/-- The printed index maps, decided over the sixteen grid points: the three input windows follow the output window's batch,
    the queries also its row block, and the block indices stay in range. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 3 ∧ win0_3.index t (1 : Fin 3) ≤ 3 ∧ win0_3.index t (2 : Fin 3) = 0 :=
  (by decide +kernel : ∀ t : Fin grid0.N, _)

/-- Every (batch, row block) is some grid point's. -/
theorem idx_onto : ∀ (q0 : Fin 4) (q1 : Fin 4), ∃ t : Fin cfg0.N, win0_3.index t = ![q0.val, q1.val, 0] :=
  (by decide +kernel : ∀ (q0 : Fin 4) (q1 : Fin 4), ∃ t : Fin grid0.N, win0_3.index t = ![q0.val, q1.val, 0])

/-- The three input blocks at a point, at their literal types. -/
abbrev qblk (c : Dev nD) (t : Fin cfg0.N) : Vec Ideal S1x512x512 .bf16 := iblk m c 0 t
abbrev kblk (c : Dev nD) (t : Fin cfg0.N) : Vec Ideal S1x2048x512 .bf16 := iblk m c 1 t
abbrev vblk (c : Dev nD) (t : Fin cfg0.N) : Vec Ideal S1x2048x512 .bf16 := iblk m c 2 t

/-- WHAT POINT `t` WRITES BACK is block `t` of the attention array of the input. -/
theorem flushed_eq (c : Dev nD) (t : Fin cfg0.N) :
    (dats m 0 c).flushed 3 t = ((cfg0.win 3).blk t).view.read (Elt Ideal) (deferredArr (xin m c)) := by
  rw [ValueP.flushed3]
  obtain ⟨e00, e01, e02, e10, e11, e12, e20, e21, e22, hb, hr, e32⟩ := idx_facts t
  have hq : ∀ (p : Fin 512) (j : Fin 512), qblk m c t (ix3 (0 : Fin 1) p j)
      = xin m c (ix3 (⟨win0_3.index t (0 : Fin 3), by omega⟩ : Fin 4) (⟨win0_3.index t (1 : Fin 3) * 512 + p.val, by have := p.isLt; omega⟩ : Fin 2048) (partCol 0 j)) := fun p j => by
    refine Eq.trans ?_ (Vq_at m c _ _ j)
    show (V m c main_v1 : S4x2048x512.Idx → EReal) (((cfg0.win 0).blk t).view.emb (ix3 (0 : Fin 1) p j)) = _
    refine congrArg _ (funext fun a => Fin.ext ?_)
    match a with
    | ⟨0, _⟩ => show win0_0.index t (0 : Fin 3) * 1 + 1 * 0 = win0_3.index t (0 : Fin 3); omega
    | ⟨1, _⟩ => show win0_0.index t (1 : Fin 3) * 512 + 1 * p.val = win0_3.index t (1 : Fin 3) * 512 + p.val; omega
    | ⟨2, _⟩ => show win0_0.index t (2 : Fin 3) * 512 + 1 * j.val = j.val; omega
  have hk : ∀ (r : Fin 2048) (j : Fin 512), kblk m c t (ix3 (0 : Fin 1) r j)
      = xin m c (ix3 (⟨win0_3.index t (0 : Fin 3), by omega⟩ : Fin 4) r (partCol 1 j)) := fun r j => by
    refine Eq.trans ?_ (Vk_at m c _ _ j)
    show (V m c main_v3 : S4x2048x512.Idx → EReal) (((cfg0.win 1).blk t).view.emb (ix3 (0 : Fin 1) r j)) = _
    refine congrArg _ (funext fun a => Fin.ext ?_)
    match a with
    | ⟨0, _⟩ => show win0_1.index t (0 : Fin 3) * 1 + 1 * 0 = win0_3.index t (0 : Fin 3); omega
    | ⟨1, _⟩ => show win0_1.index t (1 : Fin 3) * 2048 + 1 * r.val = r.val; omega
    | ⟨2, _⟩ => show win0_1.index t (2 : Fin 3) * 512 + 1 * j.val = j.val; omega
  have hv : ∀ (r : Fin 2048) (j : Fin 512), vblk m c t (ix3 (0 : Fin 1) r j)
      = xin m c (ix3 (⟨win0_3.index t (0 : Fin 3), by omega⟩ : Fin 4) r (partCol 2 j)) := fun r j => by
    refine Eq.trans ?_ (Vv_at m c _ _ j)
    show (V m c main_v5 : S4x2048x512.Idx → EReal) (((cfg0.win 2).blk t).view.emb (ix3 (0 : Fin 1) r j)) = _
    refine congrArg _ (funext fun a => Fin.ext ?_)
    match a with
    | ⟨0, _⟩ => show win0_2.index t (0 : Fin 3) * 1 + 1 * 0 = win0_3.index t (0 : Fin 3); omega
    | ⟨1, _⟩ => show win0_2.index t (1 : Fin 3) * 2048 + 1 * r.val = r.val; omega
    | ⟨2, _⟩ => show win0_2.index t (2 : Fin 3) * 512 + 1 * j.val = j.val; omega
  funext y
  have hy0 : (y 0).val < 1 := (y 0).isLt
  have hy1 : (y 1).val < 512 := (y 1).isLt
  have hy2 : (y 2).val < 512 := (y 2).isLt
  obtain ⟨n, d, hj⟩ := exists_outCol ⟨(y 2).val, hy2⟩
  have ey : y = ix3 (0 : Fin 1) (⟨(y 1).val, hy1⟩ : Fin 512) (outCol n d) := by
    funext a
    match a with
    | ⟨0, _⟩ => exact Fin.ext (by show (y 0).val = 0; omega)
    | ⟨1, _⟩ => rfl
    | ⟨2, _⟩ => exact Fin.ext (congrArg Fin.val hj)
  show out0_3 (qblk m c t) (kblk m c t) (vblk m c t) y = deferredArr (xin m c) (((cfg0.win 3).blk t).view.emb y)
  rw [ey]
  refine (block_at (qblk m c t) (kblk m c t) (vblk m c t) (xin m c) ⟨win0_3.index t (0 : Fin 3), by omega⟩
    (fun p => ⟨win0_3.index t (1 : Fin 3) * 512 + p.val, by have := p.isLt; omega⟩) hq hk hv ⟨(y 1).val, hy1⟩ n d).trans ?_
  refine (deferredArr_apply (xin m c) _ _ n d).symm.trans (congrArg (deferredArr (xin m c)) (funext fun a => Fin.ext ?_))
  match a with
  | ⟨0, _⟩ => show win0_3.index t (0 : Fin 3) = win0_3.index t (0 : Fin 3) * 1 + 1 * 0; omega
  | ⟨1, _⟩ => show win0_3.index t (1 : Fin 3) * 512 + (y 1).val = win0_3.index t (1 : Fin 3) * 512 + 1 * (y 1).val; omega
  | ⟨2, _⟩ => show n.val * 32 + d.val = win0_3.index t (2 : Fin 3) * 512 + 1 * (n.val * 32 + d.val); omega

/-! ## The blocks tile the output -/

/-- An index of the output array is in point `t`'s block iff each coordinate is in the block's range on its axis. -/
theorem mem_blk (t : Fin cfg0.N) (i : S4x2048x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v6).slice (win0_3.rect t)).set ↔ _
  rw [View.set_slice_whole, Rect.mem_set_unit]
  exact Iff.rfl

/-- Every index of the output array is in some point's block: that of its batch and of its row's block of 512. -/
theorem cover (i : S4x2048x512.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 512 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-! ## The array after the run, and the run -/

/-- The output array after the run is the attention array of the input. -/
theorem final (c : Dev nD) : (dats m 0 c).arrAt 3 cfg0.N = deferredArr (xin m c) :=
  (dats m 0 c).arrAt_eq_of_cover 3 (deferredArr (xin m c)) (fun t _ => flushed_eq m c t) cover

/-- Every weakly fair execution of the kernel's program ends with the result at the attention array of the input, the
    input unchanged. -/
theorem run : θ_run defs (onTc (τ := τ) (main (F := Ideal))) ⟨m, fun _ => 0, ρ⟩ fun r => ∀ c : Dev nD,
      r.2.mem ((c : Thread nD τ).loc main_v6) = deferredArr (xin m c)
      ∧ r.2.mem ((c : Thread nD τ).loc main_arg0) = m ((c : Thread nD τ).loc main_arg0) :=
  (θ_run defs _ _).mono (fun r h c => ⟨(h c).1.trans (final m c), (h c).2⟩) (ValueP.run_blocks m ρ)

end Cert.KernelIdeal.Arr

end
-- ==== Proof.RefAttention.lean ====
/-
  The reference's result as one function of the input.

  The reference reshapes the input to [batch, position, part, head, lane], moves part and head in front, and takes the
  three parts as queries, keys and values; scores are the queries' inner products with the keys times the scale; a softmax
  over the key positions (largest score subtracted, exponential, divided by the sum) gives the probabilities, which are
  multiplied into the values; the heads go back beside each other.  Read stage by stage at an index, the result at
  `(b, n, h * 32 + d)` is the softmax-weighted average of lane `d` of the values with the weights normalized FIRST
  (`Attention.normalizedAt`), which for an input of real numbers is `Attention.deferredAt`.
-/
import proofs.«428814_j16896401343236_3_alg».proof.Proof.Gen.ReferenceIdeal.Read
import proofs.«428814_j16896401343236_3_alg».proof.Proof.AttentionSpec
import proofs.«428814_j16896401343236_3_alg».proof.Proof.LibKeepdims
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Attention Cert.SoftmaxAverage
open scoped BigOperators

variable (x : (⟨S4x2048x1536, .f32⟩ : BufTy).Contents (Elt Ideal))

/-! ## Queries, keys and values: which input column each entry is -/

theorem idx3_at (b : Fin 4) (h : Fin 16) (n : Fin 2048) (d : Fin 32) :
    idx_main_v3 (ix4 b h n d) = ix5 (0 : Fin 1) b h n d := by
  have := b.isLt; have := h.isLt; have := n.isLt; have := d.isLt
  funext a
  apply Fin.ext
  match a with
  | ⟨0, _⟩ => rfl
  | ⟨1, _⟩ => show ((((b.val * 16 + h.val) * 2048 + n.val) * 32 + d.val) / 1048576 % 4) = b.val; omega
  | ⟨2, _⟩ => show ((((b.val * 16 + h.val) * 2048 + n.val) * 32 + d.val) / 65536 % 16) = h.val; omega
  | ⟨3, _⟩ => show ((((b.val * 16 + h.val) * 2048 + n.val) * 32 + d.val) / 32 % 2048) = n.val; omega
  | ⟨4, _⟩ => show ((((b.val * 16 + h.val) * 2048 + n.val) * 32 + d.val) % 32) = d.val; omega

theorem idx5_at (b : Fin 4) (h : Fin 16) (n : Fin 2048) (d : Fin 32) :
    idx_main_v5 (ix4 b h n d) = ix5 (0 : Fin 1) b h n d := by
  have := b.isLt; have := h.isLt; have := n.isLt; have := d.isLt
  funext a
  apply Fin.ext
  match a with
  | ⟨0, _⟩ => rfl
  | ⟨1, _⟩ => show ((((b.val * 16 + h.val) * 2048 + n.val) * 32 + d.val) / 1048576 % 4) = b.val; omega
  | ⟨2, _⟩ => show ((((b.val * 16 + h.val) * 2048 + n.val) * 32 + d.val) / 65536 % 16) = h.val; omega
  | ⟨3, _⟩ => show ((((b.val * 16 + h.val) * 2048 + n.val) * 32 + d.val) / 32 % 2048) = n.val; omega
  | ⟨4, _⟩ => show ((((b.val * 16 + h.val) * 2048 + n.val) * 32 + d.val) % 32) = d.val; omega

theorem idx7_at (b : Fin 4) (h : Fin 16) (n : Fin 2048) (d : Fin 32) :
    idx_main_v7 (ix4 b h n d) = ix5 (0 : Fin 1) b h n d := by
  have := b.isLt; have := h.isLt; have := n.isLt; have := d.isLt
  funext a
  apply Fin.ext
  match a with
  | ⟨0, _⟩ => rfl
  | ⟨1, _⟩ => show ((((b.val * 16 + h.val) * 2048 + n.val) * 32 + d.val) / 1048576 % 4) = b.val; omega
  | ⟨2, _⟩ => show ((((b.val * 16 + h.val) * 2048 + n.val) * 32 + d.val) / 65536 % 16) = h.val; omega
  | ⟨3, _⟩ => show ((((b.val * 16 + h.val) * 2048 + n.val) * 32 + d.val) / 32 % 2048) = n.val; omega
  | ⟨4, _⟩ => show ((((b.val * 16 + h.val) * 2048 + n.val) * 32 + d.val) % 32) = d.val; omega

theorem idx2_at (b : Fin 4) (h : Fin 16) (n : Fin 2048) (d : Fin 32) :
    idx_main_v2 (ix5 (0 : Fin 1) b h n d) = ix5 (0 : Fin 3) b h n d := by
  funext a
  apply Fin.ext
  match a with
  | ⟨0, _⟩ => rfl
  | ⟨1, _⟩ => rfl
  | ⟨2, _⟩ => rfl
  | ⟨3, _⟩ => rfl
  | ⟨4, _⟩ => rfl

theorem idx4_at (b : Fin 4) (h : Fin 16) (n : Fin 2048) (d : Fin 32) :
    idx_main_v4 (ix5 (0 : Fin 1) b h n d) = ix5 (1 : Fin 3) b h n d := by
  funext a
  apply Fin.ext
  match a with
  | ⟨0, _⟩ => rfl
  | ⟨1, _⟩ => rfl
  | ⟨2, _⟩ => rfl
  | ⟨3, _⟩ => rfl
  | ⟨4, _⟩ => rfl

theorem idx6_at (b : Fin 4) (h : Fin 16) (n : Fin 2048) (d : Fin 32) :
    idx_main_v6 (ix5 (0 : Fin 1) b h n d) = ix5 (2 : Fin 3) b h n d := by
  funext a
  apply Fin.ext
  match a with
  | ⟨0, _⟩ => rfl
  | ⟨1, _⟩ => rfl
  | ⟨2, _⟩ => rfl
  | ⟨3, _⟩ => rfl
  | ⟨4, _⟩ => rfl

theorem idx1_at (s : Fin 3) (b : Fin 4) (h : Fin 16) (n : Fin 2048) (d : Fin 32) :
    idx_main_v1 (ix5 s b h n d) = ix5 b n s h d := by
  funext a
  match a with
  | ⟨0, _⟩ => rfl
  | ⟨1, _⟩ => rfl
  | ⟨2, _⟩ => rfl
  | ⟨3, _⟩ => rfl
  | ⟨4, _⟩ => rfl

theorem idx0_at (b : Fin 4) (n : Fin 2048) (s : Fin 3) (h : Fin 16) (d : Fin 32) :
    idx_main_v0 (ix5 b n s h d) = ix3 b n (col s h d) := by
  have := b.isLt; have := h.isLt; have := n.isLt; have := d.isLt; have := s.isLt
  funext a
  apply Fin.ext
  match a with
  | ⟨0, _⟩ => show (((((b.val * 2048 + n.val) * 3 + s.val) * 16 + h.val) * 32 + d.val) / 3145728) = b.val; omega
  | ⟨1, _⟩ => show (((((b.val * 2048 + n.val) * 3 + s.val) * 16 + h.val) * 32 + d.val) / 1536 % 2048) = n.val; omega
  | ⟨2, _⟩ => show (((((b.val * 2048 + n.val) * 3 + s.val) * 16 + h.val) * 32 + d.val) % 1536) = (s.val * 16 + h.val) * 32 + d.val; omega

/-- The queries: head `h`, lane `d` at position `n` is the input's column `col 0 h d`. -/
theorem q_at (b : Fin 4) (h : Fin 16) (n : Fin 2048) (d : Fin 32) :
    val_main_v3 (F := Ideal) x (ix4 b h n d) = x (ix3 b n (col 0 h d)) := by
  rw [val_main_v3_apply, idx3_at, val_main_v2_apply, idx2_at, val_main_v1_apply, idx1_at, val_main_v0_apply, idx0_at]

/-- The keys: column `col 1 h d`. -/
theorem k_at (b : Fin 4) (h : Fin 16) (n : Fin 2048) (d : Fin 32) :
    val_main_v5 (F := Ideal) x (ix4 b h n d) = x (ix3 b n (col 1 h d)) := by
  rw [val_main_v5_apply, idx5_at, val_main_v4_apply, idx4_at, val_main_v1_apply, idx1_at, val_main_v0_apply, idx0_at]

/-- The values: column `col 2 h d`. -/
theorem v_at (b : Fin 4) (h : Fin 16) (n : Fin 2048) (d : Fin 32) :
    val_main_v7 (F := Ideal) x (ix4 b h n d) = x (ix3 b n (col 2 h d)) := by
  rw [val_main_v7_apply, idx7_at, val_main_v6_apply, idx6_at, val_main_v1_apply, idx1_at, val_main_v0_apply, idx0_at]

/-! ## Scores, their largest, the weights and the normalizer -/

/-- The scaled scores are `Attention.scoreOf`. -/
theorem score_at (b : Fin 4) (h : Fin 16) (n m : Fin 2048) :
    val_main_v10 (F := Ideal) x (ix4 b h n m) = scoreOf x b h n m := by
  rw [val_main_v10_apply, val_main_v8_apply, val_main_v9_apply, val_main_cst_apply]
  unfold scoreOf scale
  show (∑ k : Fin 32, val_main_v3 (F := Ideal) x (lidx_main_v8 (ix4 b h n m) k) * val_main_v5 (F := Ideal) x (ridx_main_v8 (ix4 b h n m) k))
      * Ideal.ofBits .f32 0x3E3504F3#32 = _
  refine congrArg (· * Ideal.ofBits .f32 0x3E3504F3#32) (Finset.sum_congr rfl fun k _ => ?_)
  have el : lidx_main_v8 (ix4 b h n m) k = ix4 b h n k := by
    funext a
    match a with
    | ⟨0, _⟩ => rfl
    | ⟨1, _⟩ => rfl
    | ⟨2, _⟩ => rfl
    | ⟨3, _⟩ => rfl
  have er : ridx_main_v8 (ix4 b h n m) k = ix4 b h m k := by
    funext a
    match a with
    | ⟨0, _⟩ => rfl
    | ⟨1, _⟩ => rfl
    | ⟨2, _⟩ => rfl
    | ⟨3, _⟩ => rfl
  rw [el, er, q_at, k_at]

/-- Reducing over the key positions: the index inserted at `(b, h, n)` and key `k` is `(b, h, n, k)`. -/
theorem lift_keys_eq (hR : S4x16x2048x2048.Reduces [3] S4x16x2048) (b : Fin 4) (h : Fin 16) (n k : Fin 2048) :
    hR.lift (ix3 b h n) k = ix4 b h n k := by
  funext a
  apply Fin.ext
  match a with
  | ⟨0, _⟩ => rfl
  | ⟨1, _⟩ => rfl
  | ⟨2, _⟩ => rfl
  | ⟨3, _⟩ => rfl

/-- The largest score of a query position (the maximum against minus infinity changes nothing). -/
theorem max_at (b : Fin 4) (h : Fin 16) (n : Fin 2048) :
    val_main_v13 (F := Ideal) x (ix3 b h n) = rowMax (scoreOf x b h n) := by
  rw [val_main_v13_apply, val_main_v12_apply, val_main_cst_1_apply]
  show max (Ideal.ofBits .f32 0xFF800000#32) (val_main_v11 (F := Ideal) x (ix3 b h n)) = _
  rw [ofBits_neg_inf_f32, max_eq_right bot_le]
  unfold val_main_v11
  have hR : S4x16x2048x2048.Reduces [3] S4x16x2048 := by decide
  refine (Host.reduce_eq_fold_single (FloatOps.maximumf (F := Ideal) (φ := .f32)) (val_main_v10 (F := Ideal) x) (val_main_cst_0 (F := Ideal)) reducesTo_S4x16x2048x2048_S4x16x2048_d3 hR h_S_ (ix3 b h n)).trans ?_
  have hf : (val_main_v10 (F := Ideal) x ∘ hR.lift (ix3 b h n)) = scoreOf x b h n :=
    funext fun k => (congrArg (val_main_v10 (F := Ideal) x) (lift_keys_eq hR b h n k)).trans (score_at x b h n k)
  unfold rowMax
  show Finset.fold max (Ideal.ofBits .f32 0xFF800000#32) (val_main_v10 (F := Ideal) x ∘ hR.lift (ix3 b h n)) (Finset.univ : Finset (Fin 2048)) = _
  rw [hf, ofBits_neg_inf_f32]
  rfl

/-- The exponential of a score's distance below the largest: the weight. -/
theorem weight_at (b : Fin 4) (h : Fin 16) (n m : Fin 2048) :
    val_main_v17 (F := Ideal) x (ix4 b h n m) = weight (scoreOf x b h n) m := by
  rw [val_main_v17_apply, val_main_v16_apply, val_main_v15_apply, val_main_v14_apply]
  have e : idx_main_v14 (idx_main_v15 (ix4 b h n m)) = ix3 b h n := by
    funext a
    match a with
    | ⟨0, _⟩ => rfl
    | ⟨1, _⟩ => rfl
    | ⟨2, _⟩ => rfl
  rw [e, max_at, score_at]
  rfl

/-- The sum of the weights: the normalizer. -/
theorem normalizer_at (b : Fin 4) (h : Fin 16) (n : Fin 2048) :
    val_main_v18 (F := Ideal) x (ix3 b h n) = normalizer (scoreOf x b h n) := by
  rw [val_main_v18_apply, val_main_cst_2_apply]
  show Ideal.ofBits .f32 0x00000000#32 + _ = _
  rw [Ideal.ofBits_zero_f32, zero_add]
  unfold normalizer
  refine Finset.sum_congr rfl fun k _ => ?_
  have e : idx_main_v18 (ix3 b h n) k = ix4 b h n k := by
    funext a
    match a with
    | ⟨0, _⟩ => rfl
    | ⟨1, _⟩ => rfl
    | ⟨2, _⟩ => rfl
    | ⟨3, _⟩ => rfl
  rw [e, weight_at]

/-- The probabilities: each weight over the normalizer. -/
theorem prob_at (b : Fin 4) (h : Fin 16) (n m : Fin 2048) :
    val_main_v21 (F := Ideal) x (ix4 b h n m) = Ideal.div (weight (scoreOf x b h n) m) (normalizer (scoreOf x b h n)) := by
  rw [val_main_v21_apply, val_main_v20_apply, val_main_v19_apply]
  have e : idx_main_v19 (idx_main_v20 (ix4 b h n m)) = ix3 b h n := by
    funext a
    match a with
    | ⟨0, _⟩ => rfl
    | ⟨1, _⟩ => rfl
    | ⟨2, _⟩ => rfl
  rw [e, normalizer_at, weight_at]
  rfl

/-! ## The result -/

/-- A head's output: the probabilities against the values. -/
theorem head_at (b : Fin 4) (h : Fin 16) (n : Fin 2048) (d : Fin 32) :
    val_main_v22 (F := Ideal) x (ix4 b h n d) = normalizedAt x b n h d := by
  rw [val_main_v22_apply]
  unfold normalizedAt normalized
  refine Finset.sum_congr rfl fun k _ => ?_
  have el : lidx_main_v22 (ix4 b h n d) k = ix4 b h n k := by
    funext a
    match a with
    | ⟨0, _⟩ => rfl
    | ⟨1, _⟩ => rfl
    | ⟨2, _⟩ => rfl
    | ⟨3, _⟩ => rfl
  have er : ridx_main_v22 (ix4 b h n d) k = ix4 b h k d := by
    funext a
    match a with
    | ⟨0, _⟩ => rfl
    | ⟨1, _⟩ => rfl
    | ⟨2, _⟩ => rfl
    | ⟨3, _⟩ => rfl
  rw [el, er, prob_at, v_at]
  rfl

/-- The heads side by side again: the result at `(b, n, h * 32 + d)`. -/
theorem result_at (b : Fin 4) (n : Fin 2048) (h : Fin 16) (d : Fin 32) :
    val_main_v24 (F := Ideal) x (ix3 b n (outCol h d)) = normalizedAt x b n h d := by
  rw [val_main_v24_apply, val_main_v23_apply]
  have e : idx_main_v23 (idx_main_v24 (ix3 b n (outCol h d))) = ix4 b h n d := by
    have := b.isLt; have := h.isLt; have := n.isLt; have := d.isLt
    funext a
    apply Fin.ext
    match a with
    | ⟨0, _⟩ => show ((b.val * 2048 + n.val) * 512 + (h.val * 32 + d.val)) / 1048576 = b.val; omega
    | ⟨1, _⟩ => show ((b.val * 2048 + n.val) * 512 + (h.val * 32 + d.val)) / 32 % 16 = h.val; omega
    | ⟨2, _⟩ => show ((b.val * 2048 + n.val) * 512 + (h.val * 32 + d.val)) / 512 % 2048 = n.val; omega
    | ⟨3, _⟩ => show ((b.val * 2048 + n.val) * 512 + (h.val * 32 + d.val)) % 32 = d.val; omega
  rw [e, head_at]

/-- For an input of real numbers the reference's result is the attention array with the division deferred. -/
theorem result_eq (hx : ∀ i, ∃ r : ℝ, x i = r) : val_main_v24 (F := Ideal) x = deferredArr x :=
  eq_deferredArr x _ fun b n h d => (result_at x b n h d).trans (normalizedAt_eq_deferredAt x hx b n h d)

end Cert.ReferenceIdeal.RefValue

end
-- ==== Proof.FiniteInput.lean ====
/-
  The precondition says every input entry is a real number.

  `finite_inputs` is one reduction by `and`, over all three axes, of the comparisons `|x i| < +∞`.  If the result is 1
  then every comparison is 1, so `max (x i) (-(x i)) < ⊤` on the extended reals, which rules out both infinities.
-/
import proofs.«428814_j16896401343236_3_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs

instance : Subsingleton S_.Idx := ⟨fun a b => funext fun d => d.elim0⟩

/-- An extended real whose absolute value is below `⊤` is a real number. -/
theorem real_of_abs_lt_top (a : EReal) (h : max a (-a) < ⊤) : ∃ r : ℝ, a = r := by
  have h1 : a ≠ ⊤ := fun e => by subst e; simp at h
  have h2 : a ≠ ⊥ := fun e => by subst e; simp at h
  exact ⟨a.toReal, (EReal.coe_toReal h1 h2).symm⟩

/-- Where the precondition holds, every entry of the input is a real number. -/
theorem real_of_pre [Facts] (x : FVec Ideal S4x2048x1536 .f32) (h : fn (F := Ideal) x = fun _ => 1#1)
    (i : S4x2048x1536.Idx) : ∃ r : ℝ, x i = r := by
  have h0 := congrFun h ValueIdx.ix0
  dsimp only [fn] at h0
  have hi := Host.reduce_andi_all _ _ Facts.reducesTo_S4x2048x1536_S_d0_1_2 Facts.h_S_ ValueIdx.ix0 h0 i
  have htop : Ideal.ofBits .f32 0x7F800000#32 = ⊤ := by simp [Ideal.ofBits, Ideal.ieee]
  have hc : Ideal.cmp .olt (max (x i : EReal) (-(x i : EReal))) (Ideal.ofBits .f32 0x7F800000#32) = 1#1 := hi
  rw [htop] at hc
  refine real_of_abs_lt_top (x i) ?_
  by_contra hn
  unfold Ideal.cmp at hc
  simp [hn] at hc

end Cert.Pre_finite_inputs.Finite

end
-- ==== Proof.lean ====
/-
  Multi-head self-attention with the softmax's division deferred, against the textbook order.

  The kernel's program cuts the input [4, 2048, 1536] into queries, keys and values of 16 heads of 32 lanes; a grid of
  4 batches × 4 blocks of 512 query rows runs one body per point, which for every head forms the scaled scores against all 2048
  keys, subtracts each row's largest score, exponentiates, multiplies the UNNORMALIZED weights into the values and only then
  divides each output row by the sum of its weights.  The reference normalizes the weights first (a softmax) and then
  multiplies them into the values.  At the ideal values a change of float format is the identity and sums have no
  order, so both are functions of the input on the extended reals: `(∑ m, w m * v m) / L` for the kernel and
  `∑ m, (w m / L) * v m` for the reference, `w m = exp (s m - max s)`, `L = ∑ m, w m`.  The two agree when every
  entry of the input is a real number — then every score is real, the largest score is real, every weight is a
  positive real and so is `L` — and that is what the precondition says; through an infinity the two orders of division
  differ, so the precondition is used.

  The modules: SoftmaxAverage (the law on the extended reals), AttentionSpec (the output array as one function of the
  input, in both orders), HeadBlock and KernelHeads (one head of the body; the sixteen heads side by side), KernelArray
  (from the grid points' blocks to the whole array, and the kernel's run), RefAttention (the reference's run read
  stage by stage), FiniteInput (the precondition read).  The scale `1/√32` is the same f32 word in both programs and is
  never evaluated; only that it is a real number is used.
-/
import proofs.«428814_j16896401343236_3_alg».proof.Defs
import proofs.«428814_j16896401343236_3_alg».proof.Proof.Gen.Kernel
import proofs.«428814_j16896401343236_3_alg».proof.Proof.Gen.KernelIdeal
import proofs.«428814_j16896401343236_3_alg».proof.Proof.Gen.ReferenceIdeal
import proofs.«428814_j16896401343236_3_alg».proof.Proof.Gen.Pre_finite_inputs
import proofs.«428814_j16896401343236_3_alg».proof.Proof.Gen.ReferenceIdeal.Run
import proofs.«428814_j16896401343236_3_alg».proof.Proof.Gen.ReferenceIdeal.Read
import proofs.«428814_j16896401343236_3_alg».proof.Proof.FrameKernel
import proofs.«428814_j16896401343236_3_alg».proof.Proof.FrameKernelIdeal
import proofs.«428814_j16896401343236_3_alg».proof.Proof.KernelArray
import proofs.«428814_j16896401343236_3_alg».proof.Proof.RefAttention
import proofs.«428814_j16896401343236_3_alg».proof.Proof.FiniteInput
import Idealize.ShloMosaic.Adequacy
import Idealize.ShloMosaic.Init

noncomputable section

namespace Cert.Proof

open Idealize.ShloMosaic Idealize.ShloMosaic.TcCoe Idealize.SL.Sem

/-- The kernel's program as printed runs and leaves its argument as it was. -/
theorem frame_kernel : Cert.frame_Kernel := fun m ρ _ => Cert.Kernel.GenP.frame m ρ

/-- So does its reading at the ideal values. -/
theorem frame_kernelIdeal : Cert.frame_KernelIdeal := fun m ρ _ => Cert.KernelIdeal.GenP.frame m ρ

/-- The reference runs and leaves its argument as it was: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: the ideal program is the printed one read at the ideal values. -/
theorem preserves : Cert.preserves_Kernel_KernelIdeal := trivial

/-- From memories that agree on the input, both programs end with the attention array of the input, the kernel's with the
    division deferred and the reference's normalized first; under the precondition the input's entries are real numbers
    and the two are one array. -/
theorem algebraic : Cert.algebraic_KernelIdeal_ReferenceIdeal := by
  intro m ρ m' ρ' hpre hagree
  refine ⟨fun c => Cert.Attention.deferredArr (Cert.KernelIdeal.Arr.xin m c), Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, hagree c]
  exact Cert.ReferenceIdeal.RefValue.result_eq _ fun i => Cert.Pre_finite_inputs.Finite.real_of_pre _ (hpre c) i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
